-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : IVec S800000 32) (main_arg2 : IVec S800000 32) (main_arg3 : FVec F S800000 .f32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S2000x256 : Shape := ⟨2, ![2000, 256]⟩

abbrev nBuf : Space → Nat
  | .hbm => 24
  | .vmem => 6
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x256, .f32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S1x256, .f32⟩
  | .hbm, ⟨23, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v12) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩

abbrev nBuf : Space → Nat
  | .hbm => 26
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x256, .f32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Affine.lean ====
/-
  The function both programs compute once the edge messages have been summed into the node rows:
  an affine map applied to every row. For a table `a` of `M` rows of 256 numbers, a 256 × 256 matrix `w`
  and a bias row `b`, entry `(p, q)` of the result is `(∑ k, a (p, k) · w (k, q)) + b q` on the extended reals.
  Rows do not interact, so the map commutes with cutting the table into groups of consecutive rows.
-/
import Idealize.ShloMosaic.Lib.ValueIdx

noncomputable section

open scoped BigOperators

namespace Cert.Affine

open Idealize.ShloMosaic Idealize.ShloMosaic.ValueIdx

/-- Entry `(p, q)` of the affine image of the table `a`: row `p` of `a` against column `q` of `w`, plus `b q`. -/
def entry {M : Nat} (a : (⟨2, ![M, 256]⟩ : Shape).Idx → EReal) (w : (⟨2, ![256, 256]⟩ : Shape).Idx → EReal)
    (b : Fin 256 → EReal) (p : Fin M) (q : Fin 256) : EReal :=
  (∑ k : Fin 256, a (ix2 p k) * w (ix2 k q)) + b q

/-- The affine image of the whole table, index by index. -/
def map {M : Nat} (a : (⟨2, ![M, 256]⟩ : Shape).Idx → EReal) (w : (⟨2, ![256, 256]⟩ : Shape).Idx → EReal)
    (b : Fin 256 → EReal) : (⟨2, ![M, 256]⟩ : Shape).Idx → EReal :=
  fun i => entry a w b (i 0) (i 1)

theorem map_ix2 {M : Nat} (a : (⟨2, ![M, 256]⟩ : Shape).Idx → EReal) (w : (⟨2, ![256, 256]⟩ : Shape).Idx → EReal)
    (b : Fin 256 → EReal) (p : Fin M) (q : Fin 256) : map a w b (ix2 p q) = entry a w b p q := rfl

/-- An entry depends only on its row of the table, its column of the matrix and its entry of the bias: two
    entries agree as soon as those agree, whatever the tables' heights. -/
theorem entry_congr {M M' : Nat} (a : (⟨2, ![M, 256]⟩ : Shape).Idx → EReal) (a' : (⟨2, ![M', 256]⟩ : Shape).Idx → EReal)
    (w w' : (⟨2, ![256, 256]⟩ : Shape).Idx → EReal) (b b' : Fin 256 → EReal) (p : Fin M) (p' : Fin M') (q q' : Fin 256)
    (ha : ∀ k : Fin 256, a (ix2 p k) = a' (ix2 p' k)) (hw : ∀ k : Fin 256, w (ix2 k q) = w' (ix2 k q'))
    (hb : b q = b' q') : entry a w b p q = entry a' w' b' p' q' := by
  unfold entry
  rw [hb]
  exact congrArg (· + b' q') (Finset.sum_congr rfl fun k _ => by rw [ha k, hw k])

end Cert.Affine

end
-- ==== Proof.Payload.lean ====
/-
  What the kernel body stores for one group of 2000 rows, read at one entry: with the change to the
  16-bit format the identity on the extended reals and the product accumulated from zero, entry `(p, q)`
  of the stored block is row `p` of the loaded rows against column `q` of the loaded matrix, plus entry
  `q` of the loaded bias row — the affine map of `Affine.lean` on that group of rows.
-/
import proofs.«169512_j89240830476477_1_alg».proof.Proof.Gen.KernelIdeal.Skeleton
import proofs.«169512_j89240830476477_1_alg».proof.Proof.LibPlainDot
import proofs.«169512_j89240830476477_1_alg».proof.Proof.Affine
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The stored block at `(p, q)`. -/
theorem pay_apply (x0 : Vec Ideal S2000x256 .f32) (x1 : Vec Ideal S256x256 .f32) (x2 : Vec Ideal S1x256 .f32)
    (p : Fin 2000) (q : Fin 256) :
    k0_pay1 (F := Ideal) x0 x1 x2 (ix2 p q) = Cert.Affine.entry x0 x1 (fun j => x2 (ix2 0 j)) p q := by
  unfold k0_pay1 Cert.Affine.entry
  rw [addf_apply]
  refine congrArg₂ (· + ·) ?_ ?_
  · refine (PlainDot.matmul_zero_apply dot_S2000x256_S256x256_S2000x256_1_0_0_1_n_n rfl rfl rfl rfl rfl rfl rfl rfl
      none _ _ p q).trans ?_
    simp only [truncf_apply, shapeCast_self]
  · rw [shapeCast_self]
    exact broadcastTo_apply x2 broadcasts_S1x256_S2000x256 (ix2 p q) (ix2 0 q) (fun a => by
      match a with
      | ⟨0, _⟩ => rfl
      | ⟨1, _⟩ => rfl)

end Cert.KernelIdeal.Payload

end
-- ==== Proof.KernelArray.lean ====
/-
  From groups of rows to the whole result. The pipeline runs the body once for each of the 25 groups of
  2000 consecutive rows of the table of summed rows; at group `t` it stages rows `2000·t … 2000·t + 1999` of the
  table, the whole weight matrix and the whole bias row, and writes the body's block back to the same rows of
  the result. Since the affine map of `Affine.lean` acts on each row by itself, what group `t` writes back is
  rows `2000·t …` of the affine image of the WHOLE table; the 25 groups cover all 50000 rows, so after the run the
  result array is that image.
-/
import proofs.«169512_j89240830476477_1_alg».proof.Proof.Gen.KernelIdeal.Value
import proofs.«169512_j89240830476477_1_alg».proof.Proof.Payload

set_option maxRecDepth 16384

noncomputable section

open scoped BigOperators

namespace Cert.KernelIdeal.Whole

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The bias row as the region finds it, read along its one long axis. -/
def biasRow (c : Dev nD) : Fin 256 → EReal := fun q => V m c main_v13 (ix2 (0 : Fin 1) q)

/-- The affine image of the table of summed rows, as the region finds the three arrays. -/
def image (c : Dev nD) : S50000x256.Idx → EReal :=
  fun i => Cert.Affine.entry (V m c main_v12) (V m c main_arg4) (biasRow m c) (i 0) (i 1)

theorem image_apply (c : Dev nD) (i : S50000x256.Idx) :
    image m c i = Cert.Affine.entry (V m c main_v12) (V m c main_arg4) (biasRow m c) (i 0) (i 1) := rfl

/-- Which block each window stages at group `t`: the table's and the result's move together down the rows,
    the matrix and the bias row stay put; decided over the 25 groups. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Reading any array of the result's shape through group `t`'s block reads it at the block's entries. -/
theorem read_blk (G : S50000x256.Idx → EReal) (t : Fin cfg0.N) (j : ((cfg0.win 3).xblock (grid0.coords t)).Idx) :
    ((cfg0.win 3).blk t).view.read (Elt Ideal) G j = G (((cfg0.win 3).blk t).view.emb j) := rfl

/-- The result's blocks are whole: nothing is cut off what the body stored. -/
theorem cut_apply (X : Vec Ideal S2000x256 .f32) (t : Fin cfg0.N) (p : Fin 2000) (q : Fin 256) :
    (cfg0.win 3).cut (grid0.coords t) X (ix2 p q) = X (ix2 p q) := rfl

/-- Row `p` of the rows staged at group `t` is row `2000·t + p` of the table: the row of the result's entry
    that `(p, q)` of group `t`'s block is. -/
theorem rows_apply (A : S50000x256.Idx → EReal) (t : Fin cfg0.N) (p : Fin 2000) (q k : Fin 256) :
    ((cfg0.win 0).blk t).view.read (Elt Ideal) A (ix2 p k)
      = A (ix2 ((((cfg0.win 3).blk t).view.emb (ix2 p q)) 0) k) := by
  obtain ⟨e0, e1, -, -, -, -, -, -⟩ := block_indices t
  refine congrArg A (funext fun a => Fin.ext ?_)
  match a with
  | ⟨0, _⟩ => show win0_0.index t (0 : Fin 2) * 2000 + 1 * p.val = win0_3.index t (0 : Fin 2) * 2000 + 1 * p.val; omega
  | ⟨1, _⟩ => show win0_0.index t (1 : Fin 2) * 256 + 1 * k.val = k.val; omega

/-- The matrix staged at every group is the whole matrix; column `q` of it is the column of the result's entry. -/
theorem matrix_apply (A : S256x256.Idx → EReal) (t : Fin cfg0.N) (p : Fin 2000) (q k : Fin 256) :
    ((cfg0.win 1).blk t).view.read (Elt Ideal) A (ix2 k q)
      = A (ix2 k ((((cfg0.win 3).blk t).view.emb (ix2 p q)) 1)) := by
  obtain ⟨-, -, e2, e3, -, -, -, e7⟩ := block_indices t
  refine congrArg A (funext fun a => Fin.ext ?_)
  match a with
  | ⟨0, _⟩ => show win0_1.index t (0 : Fin 2) * 256 + 1 * k.val = k.val; omega
  | ⟨1, _⟩ => show win0_1.index t (1 : Fin 2) * 256 + 1 * q.val = win0_3.index t (1 : Fin 2) * 256 + 1 * q.val; omega

/-- The bias row staged at every group is the whole row. -/
theorem bias_apply (A : S1x256.Idx → EReal) (t : Fin cfg0.N) (p : Fin 2000) (q : Fin 256) :
    ((cfg0.win 2).blk t).view.read (Elt Ideal) A (ix2 (0 : Fin 1) q)
      = A (ix2 (0 : Fin 1) ((((cfg0.win 3).blk t).view.emb (ix2 p q)) 1)) := by
  obtain ⟨-, -, -, -, e4, e5, -, e7⟩ := block_indices t
  refine congrArg A (funext fun a => Fin.ext ?_)
  match a with
  | ⟨0, _⟩ => show win0_2.index t (0 : Fin 2) * 1 + 1 * 0 = 0; omega
  | ⟨1, _⟩ => show win0_2.index t (1 : Fin 2) * 256 + 1 * q.val = win0_3.index t (1 : Fin 2) * 256 + 1 * q.val; omega

/-- What group `t` writes back is the affine image of the whole table read through the group's rows. -/
theorem flushed_eq (c : Dev nD) (t : Fin cfg0.N) :
    (dats m 0 c).flushed 3 t = ((cfg0.win 3).blk t).view.read (Elt Ideal) (image m c) := by
  show (cfg0.win 3).cut (grid0.coords t) ((dats m 0 c).after 3 t) = _
  rw [after0_3]
  unfold out0_3
  rw [View.canon_unit_zero origin_zero]
  simp only [View.ld_unit_zero (S := S2000x256) origin_zero, View.ld_unit_zero (S := S256x256) origin_zero,
    View.ld_unit_zero (S := S1x256) origin_zero]
  funext j
  obtain ⟨p, q, rfl⟩ : ∃ (p : Fin 2000) (q : Fin 256), j = ix2 p q := ⟨j 0, j 1, eq_ix2 j⟩
  refine (cut_apply (k0_pay1 (F := Ideal) (iblk m c 0 t) (iblk m c 1 t) (iblk m c 2 t)) t p q).trans ?_
  refine Eq.trans ?_ (read_blk (image m c) t (ix2 p q)).symm
  refine (Cert.KernelIdeal.Payload.pay_apply (iblk m c 0 t) (iblk m c 1 t) (iblk m c 2 t) p q).trans ?_
  refine Eq.trans ?_ (image_apply m c (((cfg0.win 3).blk t).view.emb (ix2 p q))).symm
  exact Cert.Affine.entry_congr (iblk m c 0 t) (V m c main_v12) (iblk m c 1 t) (V m c main_arg4)
    (fun j => iblk m c 2 t (ix2 (0 : Fin 1) j)) (biasRow m c) p _ q _
    (fun k => rows_apply (V m c main_v12) t p q k)
    (fun k => matrix_apply (V m c main_arg4) t p q k)
    (bias_apply (V m c main_v13) t p q)

/-- An entry of the result lies in group `t`'s block iff each coordinate lies in the block's range. -/
theorem mem_blk (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v14).slice (win0_3.rect t)).set ↔ _
  rw [View.set_slice_whole, Rect.mem_set_unit]
  exact Iff.rfl

/-- Every entry of the result is written by some group: row `r` by group `r / 2000`. -/
theorem covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, -, -, e6, e7⟩ := block_indices t
  have ht : t.val = (i 0).val / 2000 := rfl
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 256 ≤ (i 1).val ∧ (i 1).val < win0_3.index t (1 : Fin 2) * 256 + 256
    omega

/-- After the run the result array is the affine image of the table of summed rows. -/
theorem final (c : Dev nD) : (dats m 0 c).arrAt 3 cfg0.N = image m c :=
  (dats m 0 c).arrAt_eq_of_cover 3 (image m c) (fun t _ => flushed_eq m c t) covered

end Cert.KernelIdeal.Whole

end
-- ==== Proof.HostPrefix.lean ====
/-
  The arrays the kernel's one region finds. Before the region the program sums the edge messages into the node
  rows — for each edge the source node's row scaled by the edge's weight, added into the target node's row —
  and views the bias as one row. These are, operation for operation, the reference's own first steps: the table
  of summed rows the region finds is the reference's table (the two programs print the same operations over
  the same dimension records, so the two terms are one), and the bias row at `(0, q)` is the bias at `q`.
-/
import proofs.«169512_j89240830476477_1_alg».proof.Proof.Gen.KernelIdeal.Frame
import proofs.«169512_j89240830476477_1_alg».proof.Proof.Gen.ReferenceIdeal.Read
import Idealize.ShloMosaic.Lib.StableHlo.Run
import Idealize.ShloMosaic.Lib.Pipeline.Value

noncomputable section

namespace Cert.KernelIdeal.HostPrefix

open Cert.KernelIdeal Cert.KernelIdeal.Gen Idealize.ShloMosaic Idealize.ShloMosaic.TcCoe Idealize.SL.Sem
  Idealize.ShloMosaic.ValueIdx Idealize.ShloMosaic.StableHlo

variable (m : (ℓ : Loc nD τ sig) → Buf (Elt Ideal) ℓ)

/-- The table of summed rows the region finds is the reference's, of the same four argument arrays. -/
theorem table_eq (c : Dev nD) : (V m c main_v12 : S50000x256.Idx → EReal)
    = Cert.ReferenceIdeal.Read.val_main_v12 (F := Ideal) (m ((c : Thread nD τ).loc main_arg0))
        (m ((c : Thread nD τ).loc main_arg1)) (m ((c : Thread nD τ).loc main_arg2)) (m ((c : Thread nD τ).loc main_arg3)) := by
  dsimp only [Gen.V, Gen.hostOps0]
  after_results
  rfl

/-- The bias row the region finds is the bias array viewed as one row. -/
theorem bias_eq (c : Dev nD) : (V m c main_v13 : S1x256.Idx → EReal)
    = shapeCast S1x256 (m ((c : Thread nD τ).loc main_arg5)) shapeCasts_S256_S1x256 := by
  dsimp only [Gen.V, Gen.hostOps0]
  after_results
  rfl

/-- Entry `(0, q)` of the one-row view is entry `q` of the array. -/
theorem row_apply (x : S256.Idx → EReal) (q : Fin 256) :
    shapeCast S1x256 x shapeCasts_S256_S1x256 (ix2 (0 : Fin 1) q) = x (ix1 q) := by
  refine (shapeCast_addUnit_apply ![256] x shapeCasts_S256_S1x256 (ix2 (0 : Fin 1) q)).trans (congrArg x ?_)
  funext a
  match a with
  | ⟨0, _⟩ => rfl

/-- The bias row the region finds, at `(0, q)`, is the bias at `q`. -/
theorem bias_apply (c : Dev nD) (q : Fin 256) :
    V m c main_v13 (ix2 (0 : Fin 1) q) = m ((c : Thread nD τ).loc main_arg5) (ix1 q) :=
  (congrFun (bias_eq m c) (ix2 (0 : Fin 1) q)).trans (row_apply _ q)

end Cert.KernelIdeal.HostPrefix

end
-- ==== Proof.Bridge.lean ====
/-
  The kernel's result as a function of the six argument arrays. The region leaves in the result array the affine
  image of the table of summed rows it found (`KernelArray.lean`); that table is the reference's table of the same
  argument arrays, the weight matrix is the argument as launched, and the bias row is the bias argument viewed as
  one row (`HostPrefix.lean`). So the result is the affine map of the reference's table, the weight matrix and the
  bias — the very function the reference's last three operations compute (`RefValue.lean`).
-/
import proofs.«169512_j89240830476477_1_alg».proof.Proof.KernelArray
import proofs.«169512_j89240830476477_1_alg».proof.Proof.HostPrefix

noncomputable section

namespace Cert.KernelIdeal.Bridge

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ) (ρ : Dev nD → PrngReg)

/-- The result of the kernel program on core `c`, from the argument arrays as launched. -/
def result (c : Dev nD) : S50000x256.Idx → EReal :=
  Cert.Affine.map
    (Cert.ReferenceIdeal.Read.val_main_v12 (F := Ideal) (m ((c : Thread nD τ).loc main_arg0))
      (m ((c : Thread nD τ).loc main_arg1)) (m ((c : Thread nD τ).loc main_arg2)) (m ((c : Thread nD τ).loc main_arg3)))
    (m ((c : Thread nD τ).loc main_arg4))
    (fun q => m ((c : Thread nD τ).loc main_arg5) (ix1 q))

/-- The affine image of what the region found is that function of the arguments. -/
theorem image_eq (c : Dev nD) : Cert.KernelIdeal.Whole.image m c = result m c := by
  funext i
  refine (Cert.KernelIdeal.Whole.image_apply m c i).trans ?_
  exact Cert.Affine.entry_congr (V m c main_v12) _ (V m c main_arg4) (m ((c : Thread nD τ).loc main_arg4))
    (Cert.KernelIdeal.Whole.biasRow m c) (fun q => m ((c : Thread nD τ).loc main_arg5) (ix1 q)) (i 0) (i 0) (i 1) (i 1)
    (fun k => congrFun (Cert.KernelIdeal.HostPrefix.table_eq m c) _)
    (fun k => congrFun (V_main_arg4 m c) _)
    (Cert.KernelIdeal.HostPrefix.bias_apply m c (i 1))

/-- Every weakly fair execution of the kernel program ends with the result array at `result` and the arguments
    unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono
    (fun r h c => ⟨(h c).1.trans ((Cert.KernelIdeal.Whole.final m c).trans (image_eq m c)), (h c).2⟩)
    (Cert.KernelIdeal.Value.run_blocks m ρ)

end Cert.KernelIdeal.Bridge

end
-- ==== Proof.RefValue.lean ====
/-
  The reference's last three operations — the product of the summed rows with the weight matrix, the bias
  row repeated down the rows, their sum — are the affine map of `Affine.lean` applied to the table of summed
  rows, whatever that table is: the sum of the edge messages into the node rows is kept as one unopened term.
-/
import proofs.«169512_j89240830476477_1_alg».proof.Proof.Gen.ReferenceIdeal.Read
import proofs.«169512_j89240830476477_1_alg».proof.Proof.Affine

noncomputable section

open scoped BigOperators

namespace Cert.ReferenceIdeal.RefValue

open Cert.ReferenceIdeal Cert.ReferenceIdeal.Gen Cert.ReferenceIdeal.Read Idealize.ShloMosaic
  Idealize.ShloMosaic.ValueIdx

/-- The left factor of term `k` of entry `i` is the summed table at row `i 0`, column `k`. -/
theorem lidx_eq (i : S50000x256.Idx) (k : Fin 256) : lidx_main_v13 i k = ix2 (i 0) k :=
  funext fun a => Fin.ext (by match a with | ⟨0, _⟩ => rfl | ⟨1, _⟩ => rfl)

/-- The right factor is the weight matrix at row `k`, column `i 1`. -/
theorem ridx_eq (i : S50000x256.Idx) (k : Fin 256) : ridx_main_v13 i k = ix2 k (i 1) :=
  funext fun a => Fin.ext (by match a with | ⟨0, _⟩ => rfl | ⟨1, _⟩ => rfl)

/-- The repeated bias at entry `i` is the bias at `i 1`. -/
theorem bidx_eq (i : S50000x256.Idx) : idx_main_v14 (idx_main_v15 i) = ix1 (i 1) :=
  funext fun a => Fin.ext (by match a with | ⟨0, _⟩ => rfl)

/-- The reference's result is the affine map of its table of summed rows. -/
theorem result_eq (x0 : (⟨S50000x256, .f32⟩ : BufTy).Contents (Elt Ideal)) (x1 x2 : (⟨S800000, .i32⟩ : BufTy).Contents (Elt Ideal))
    (x3 : (⟨S800000, .f32⟩ : BufTy).Contents (Elt Ideal)) (x4 : (⟨S256x256, .f32⟩ : BufTy).Contents (Elt Ideal))
    (x5 : (⟨S256, .f32⟩ : BufTy).Contents (Elt Ideal)) :
    val_main_v16 (F := Ideal) x0 x1 x2 x3 x4 x5
      = Cert.Affine.map (val_main_v12 (F := Ideal) x0 x1 x2 x3) x4 (fun q => x5 (ix1 q)) := by
  funext i
  rw [val_main_v16_apply, val_main_v13_apply, val_main_v15_apply, val_main_v14_apply]
  simp only [lidx_eq, ridx_eq, bidx_eq]
  rfl

end Cert.ReferenceIdeal.RefValue

end
-- ==== Proof.lean ====
/-
  A graph-convolution layer: for every edge the source node's feature row is scaled by the edge's weight and
  added into the target node's row, and the table of summed rows is then sent through a linear layer,
  `out = agg · W + b`. The kernel program and the reference sum the edge messages by the same operations; they
  differ in the linear layer only. The kernel cuts the 50000 rows into 25 groups of 2000 and, for each group,
  multiplies the rows (passed through a 16-bit format, which on the extended reals is the identity) with the
  whole matrix, accumulating from zero, and adds the bias row; the reference multiplies the whole table at once
  and adds the bias repeated down the rows. On the extended reals both give, at row `i` and column `j`,
  `(∑ k, agg (i, k) · W (k, j)) + b j` — a row's image depends on that row alone, so cutting the table into groups
  changes nothing, and no law beyond reading each operation at an index is used (the inputs' finiteness is not
  needed).

  The three frames are the generated ones (the reference's from its generated run); no operation of the kernel
  was rewritten for the idealization, so that conjunct is `True`; the equivalence sets the kernel's run
  (`Bridge.run`) beside the reference's generated run read as the same affine map (`RefValue.result_eq`).
-/
import proofs.«169512_j89240830476477_1_alg».proof.Defs
import proofs.«169512_j89240830476477_1_alg».proof.Proof.Gen.Kernel
import proofs.«169512_j89240830476477_1_alg».proof.Proof.Gen.Kernel.Skeleton
import proofs.«169512_j89240830476477_1_alg».proof.Proof.Gen.Kernel.Launch
import proofs.«169512_j89240830476477_1_alg».proof.Proof.Gen.Kernel.Points
import proofs.«169512_j89240830476477_1_alg».proof.Proof.Gen.Kernel.Frame
import proofs.«169512_j89240830476477_1_alg».proof.Proof.Gen.KernelIdeal
import proofs.«169512_j89240830476477_1_alg».proof.Proof.Gen.KernelIdeal.Skeleton
import proofs.«169512_j89240830476477_1_alg».proof.Proof.Gen.KernelIdeal.Launch
import proofs.«169512_j89240830476477_1_alg».proof.Proof.Gen.KernelIdeal.Points
import proofs.«169512_j89240830476477_1_alg».proof.Proof.Gen.KernelIdeal.Frame
import proofs.«169512_j89240830476477_1_alg».proof.Proof.Gen.ReferenceIdeal
import proofs.«169512_j89240830476477_1_alg».proof.Proof.Gen.Pre_finite_inputs
import proofs.«169512_j89240830476477_1_alg».proof.Proof.Gen.KernelIdeal.Value
import proofs.«169512_j89240830476477_1_alg».proof.Proof.Gen.ReferenceIdeal.Run
import proofs.«169512_j89240830476477_1_alg».proof.Proof.Gen.ReferenceIdeal.Read
import proofs.«169512_j89240830476477_1_alg».proof.Proof.Bridge
import proofs.«169512_j89240830476477_1_alg».proof.Proof.RefValue
import Idealize.ShloMosaic.Adequacy
import Idealize.ShloMosaic.Init

noncomputable section

namespace Cert.Proof

open Idealize.ShloMosaic Idealize.SL.Sem

/-- The kernel program at the word level terminates without a fault and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs to its composed term and keeps its arguments; the frame forgets the term. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the affine map of the table of summed rows, the weight matrix and the bias. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  refine (Cert.ReferenceIdeal.Read.val_main_v16_eq _ _ _ _ _ _).trans ?_
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
